-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048 : Shape := ⟨2, ![2, 2048]⟩
abbrev S50400x4096 : Shape := ⟨2, ![50400, 4096]⟩
abbrev S4096 : Shape := ⟨1, ![4096]⟩
abbrev S2048x4096 : Shape := ⟨2, ![2048, 4096]⟩
abbrev S_ : Shape := ⟨0, ![]⟩

class Facts : Prop where
  bcast_S_S50400x4096 : S_.BroadcastsInDim S50400x4096 (![] : Fin 0 → Fin S50400x4096.rank)
  reducesTo_S50400x4096_S_d0_1 : S50400x4096.ReducesTo [0, 1] S_
  h_S_ : 0 < S_.numel
  bcast_S_S4096 : S_.BroadcastsInDim S4096 (![] : Fin 0 → Fin S4096.rank)
  reducesTo_S4096_S_d0 : S4096.ReducesTo [0] S_
  bcast_S_S2048x4096 : S_.BroadcastsInDim S2048x4096 (![] : Fin 0 → Fin S2048x4096.rank)
  reducesTo_S2048x4096_S_d0_1 : S2048x4096.ReducesTo [0, 1] S_

variable [Facts]

def fn {F : FTy → Type} [FloatOps F] (main_arg0 : IVec S2x2048 32) (main_arg1 : FVec F S50400x4096 .f32) (main_arg2 : FVec F S4096 .f32) (main_arg3 : FVec F S2048x4096 .f32) : IVec S_ 1 :=
  let main_v0 : FVec F S50400x4096 .f32 := Host.absf main_arg1
  let main_cst : FVec F S_ .f32 := constant S_ .f32 0x7F800000#32
  let main_v1 : FVec F S50400x4096 .f32 := broadcastInDim S50400x4096 ![] bcast_S_S50400x4096 main_cst
  let main_v2 : IVec S50400x4096 1 := cmpf .olt main_v0 main_v1
  let main_c : IVec S_ 1 := constantI S_ 1 1#1
  let main_v3 : IVec S_ 1 := (fun x v => Host.reduce IntOp.andi x v reducesTo_S50400x4096_S_d0_1 h_S_) main_v2 main_c
  let main_v4 : FVec F S4096 .f32 := Host.absf main_arg2
  let main_cst_0 : FVec F S_ .f32 := constant S_ .f32 0x7F800000#32
  let main_v5 : FVec F S4096 .f32 := broadcastInDim S4096 ![] bcast_S_S4096 main_cst_0
  let main_v6 : IVec S4096 1 := cmpf .olt main_v4 main_v5
  let main_c_1 : IVec S_ 1 := constantI S_ 1 1#1
  let main_v7 : IVec S_ 1 := (fun x v => Host.reduce IntOp.andi x v reducesTo_S4096_S_d0 h_S_) main_v6 main_c_1
  let main_v8 : IVec S_ 1 := andi main_v3 main_v7
  let main_v9 : FVec F S2048x4096 .f32 := Host.absf main_arg3
  let main_cst_2 : FVec F S_ .f32 := constant S_ .f32 0x7F800000#32
  let main_v10 : FVec F S2048x4096 .f32 := broadcastInDim S2048x4096 ![] bcast_S_S2048x4096 main_cst_2
  let main_v11 : IVec S2048x4096 1 := cmpf .olt main_v9 main_v10
  let main_c_3 : IVec S_ 1 := constantI S_ 1 1#1
  let main_v12 : IVec S_ 1 := (fun x v => Host.reduce IntOp.andi x v reducesTo_S2048x4096_S_d0_1 h_S_) main_v11 main_c_3
  let main_v13 : IVec S_ 1 := andi main_v8 main_v12
  main_v13
-- ==== Kernel.lean ====
abbrev S2x2048 : Shape := ⟨2, ![2, 2048]⟩
abbrev S50400x4096 : Shape := ⟨2, ![50400, 4096]⟩
abbrev S4096 : Shape := ⟨1, ![4096]⟩
abbrev S2048x4096 : Shape := ⟨2, ![2048, 4096]⟩
abbrev S_ : Shape := ⟨0, ![]⟩
abbrev S50688x4096 : Shape := ⟨2, ![50688, 4096]⟩
abbrev S1x4096 : Shape := ⟨2, ![1, 4096]⟩
abbrev S2x2048x4096 : Shape := ⟨3, ![2, 2048, 4096]⟩
abbrev S2x256 : Shape := ⟨2, ![2, 256]⟩
abbrev S512x2048 : Shape := ⟨2, ![512, 2048]⟩
abbrev S256x2048 : Shape := ⟨2, ![256, 2048]⟩
abbrev S1x2048 : Shape := ⟨2, ![1, 2048]⟩
abbrev S2x256x2048 : Shape := ⟨3, ![2, 256, 2048]⟩
abbrev S256x512 : Shape := ⟨2, ![256, 512]⟩
abbrev S1x256 : Shape := ⟨2, ![1, 256]⟩
abbrev S256 : Shape := ⟨1, ![256]⟩
abbrev S256x1 : Shape := ⟨2, ![256, 1]⟩
abbrev S1x256x2048 : Shape := ⟨3, ![1, 256, 2048]⟩

abbrev nBuf : Space → Nat
  | .hbm => 9
  | .vmem => 11
  | .smem => 0
  | _ => 0

abbrev bufTy : (tb : Table) → Fin (tcTables nBuf tb) → BufTy
  | .hbm, ⟨0, _⟩ => ⟨S2x2048, .i32⟩
  | .hbm, ⟨1, _⟩ => ⟨S50400x4096, .f32⟩
  | .hbm, ⟨2, _⟩ => ⟨S4096, .f32⟩
  | .hbm, ⟨3, _⟩ => ⟨S2048x4096, .f32⟩
  | .hbm, ⟨4, _⟩ => ⟨S_, .i32⟩
  | .hbm, ⟨5, _⟩ => ⟨S_, .f32⟩
  | .hbm, ⟨6, _⟩ => ⟨S50688x4096, .f32⟩
  | .hbm, ⟨7, _⟩ => ⟨S1x4096, .f32⟩
  | .hbm, ⟨8, _⟩ => ⟨S2x2048x4096, .f32⟩
  | .local _ .vmem, ⟨0, _⟩ => ⟨S2x256, .i32⟩
  | .local _ .vmem, ⟨1, _⟩ => ⟨S2x256, .i32⟩
  | .local _ .vmem, ⟨2, _⟩ => ⟨S512x2048, .f32⟩
  | .local _ .vmem, ⟨3, _⟩ => ⟨S512x2048, .f32⟩
  | .local _ .vmem, ⟨4, _⟩ => ⟨S256x2048, .f32⟩
  | .local _ .vmem, ⟨5, _⟩ => ⟨S256x2048, .f32⟩
  | .local _ .vmem, ⟨6, _⟩ => ⟨S1x2048, .f32⟩
  | .local _ .vmem, ⟨7, _⟩ => ⟨S1x2048, .f32⟩
  | .local _ .vmem, ⟨8, _⟩ => ⟨S2x256x2048, .f32⟩
  | .local _ .vmem, ⟨9, _⟩ => ⟨S2x256x2048, .f32⟩
  | .local _ .vmem, ⟨10, _⟩ => ⟨S2x256x2048, .f32⟩
  | _, _ => ⟨S2x2048, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 2, 99], ![false, false, false]⟩

def k0_cond2 (i : grid0.Coords) : BitVec 1 :=
  let arg2 : BitVec 32 := BitVec.ofNat 32 (i 2).val
  let c98_i32 : BitVec 32 := 98#32
  let v40 : BitVec 1 := Scalar.cmpi .eq arg2 c98_i32
  let v41 : BitVec 32 := Scalar.extui v40
  let c0_i32_18 : BitVec 32 := 0#32
  let v42 : BitVec 1 := Scalar.cmpi .ne v41 c0_i32_18
  v42

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg1.toNat]

abbrev stage0_0 : Fin 2 → Memref sig .tc .vmem S2x256 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S2x256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

class Facts₀ : Prop where
  pads_S50400x4096_S50688x4096_02880_000 : S50400x4096.Pads (![0, 0] : Fin 2 → Nat) ![288, 0] ![0, 0] S50688x4096
  h_S_ : 0 < S_.numel
  shapeCasts_S4096_S1x4096 : S4096.ShapeCasts S1x4096
  inb_S2x256x2048_S2x256x2048_0_0_0 : ∀ a, (![0, 0, 0] : Fin 3 → Nat) a + S2x256x2048.size a ≤ S2x256x2048.size a
  h_S2x256x2048 : 0 < S2x256x2048.numel
  shapeCasts_S2x256x2048_S2x256x2048 : S2x256x2048.ShapeCasts S2x256x2048
  iota_S256x512_d1_w32 : S256x512.Iotas .tc 32 [1]
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  bitsLt_bf16_f32 : FTy.bits .bf16 < FTy.bits .f32
  inb_S2x256_S1x256_0_0 : ∀ a, (![0, 0] : Fin 2 → Nat) a + S1x256.size a ≤ S2x256.size a
  h_S1x256 : 0 < S1x256.numel
  shapeCasts_S1x256_S256 : S1x256.ShapeCasts S256
  shapeCasts_S256_S256x1 : S256.ShapeCasts S256x1
  broadcasts_S256x1_S256x512 : S256x1.Broadcasts S256x512
  natLt_1_32 : 1 < 32
  inb_S2x256x2048_S1x256x2048_0_0_0 : ∀ a, (![0, 0, 0] : Fin 3 → Nat) a + S1x256x2048.size a ≤ S2x256x2048.size a
  h_S1x256x2048 : 0 < S1x256x2048.numel
  shapeCasts_S1x256x2048_S256x2048 : S1x256x2048.ShapeCasts S256x2048
  shapeCasts_S256x2048_S1x256x2048 : S256x2048.ShapeCasts S1x256x2048
  inb_S2x256_S1x256_1_0 : ∀ a, (![1, 0] : Fin 2 → Nat) a + S1x256.size a ≤ S2x256.size a
  inb_S2x256x2048_S1x256x2048_1_0_0 : ∀ a, (![1, 0, 0] : Fin 3 → Nat) a + S1x256x2048.size a ≤ S2x256x2048.size a
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  inb_S256x2048_S256x2048_0_0 : ∀ a, (![0, 0] : Fin 2 → Nat) a + S256x2048.size a ≤ S256x2048.size a
  h_S256x2048 : 0 < S256x2048.numel
  broadcasts_S1x2048_S256x2048 : S1x2048.Broadcasts S256x2048
  dot_S256x512_S512x2048_S256x2048_1_0_0_1_n_n_wf : DotDims.WF S256x512 S512x2048 S256x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x256.size a ≤ S2x2048.size a
  hwx0_0 : ∀ i : grid0.Coords, EltTy.bits .i32 = 32 ∨ (Rect.block (s := S2x2048) S2x256.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S50688x4096.size a
  hwx0_1 : ∀ i : grid0.Coords, EltTy.bits .f32 = 32 ∨ (Rect.block (s := S50688x4096) S512x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x2048.size a ≤ S2048x4096.size a
  hwx0_2 : ∀ i : grid0.Coords, EltTy.bits .f32 = 32 ∨ (Rect.block (s := S2048x4096) S256x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048.size a ≤ S1x4096.size a
  hwx0_3 : ∀ i : grid0.Coords, EltTy.bits .f32 = 32 ∨ (Rect.block (s := S1x4096) S1x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2x256x2048.size a ≤ S2x2048x4096.size a
  hwx0_4 : ∀ i : grid0.Coords, EltTy.bits .f32 = 32 ∨ (Rect.block (s := S2x2048x4096) S2x256x2048.size (cc0_transform_4 i) (hinb0_4 i)).WholeWords (EltTy.packing .f32)

variable [Facts₀]

def dot_S256x512_S512x2048_S256x2048_1_0_0_1_n_n : DotDims S256x512 S512x2048 S256x2048 where
  lhsContracting := [1]
  rhsContracting := [0]
  lhsNonContracting := [0]
  rhsNonContracting := [1]
  lhsBatch := []
  rhsBatch := []
  wf := dot_S256x512_S512x2048_S256x2048_1_0_0_1_n_n_wf

abbrev win0_0 : Pipeline.Window sig grid0 :=
  Pipeline.Window.ofSpec (Memref.whole main_arg0) S2x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S256x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S2x256x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S2x2048 : Shape := ⟨2, ![2, 2048]⟩
abbrev S50400x4096 : Shape := ⟨2, ![50400, 4096]⟩
abbrev S4096 : Shape := ⟨1, ![4096]⟩
abbrev S2048x4096 : Shape := ⟨2, ![2048, 4096]⟩
abbrev S2x2048x1 : Shape := ⟨3, ![2, 2048, 1]⟩
abbrev S1x1x50400 : Shape := ⟨3, ![1, 1, 50400]⟩
abbrev S2x2048x50400 : Shape := ⟨3, ![2, 2048, 50400]⟩
abbrev S2x2048x4096 : Shape := ⟨3, ![2, 2048, 4096]⟩
abbrev S1x1x4096 : Shape := ⟨3, ![1, 1, 4096]⟩
abbrev S1x2048x4096 : Shape := ⟨3, ![1, 2048, 4096]⟩

abbrev nBuf : Space → Nat
  | .hbm => 17
  | .vmem => 0
  | .smem => 0
  | _ => 0

abbrev bufTy : (tb : Table) → Fin (tcTables nBuf tb) → BufTy
  | .hbm, ⟨0, _⟩ => ⟨S2x2048, .i32⟩
  | .hbm, ⟨1, _⟩ => ⟨S50400x4096, .f32⟩
  | .hbm, ⟨2, _⟩ => ⟨S4096, .f32⟩
  | .hbm, ⟨3, _⟩ => ⟨S2048x4096, .f32⟩
  | .hbm, ⟨4, _⟩ => ⟨S2x2048x1, .i32⟩
  | .hbm, ⟨5, _⟩ => ⟨S1x1x50400, .i32⟩
  | .hbm, ⟨6, _⟩ => ⟨S2x2048x50400, .i32⟩
  | .hbm, ⟨7, _⟩ => ⟨S2x2048x50400, .i32⟩
  | .hbm, ⟨8, _⟩ => ⟨S2x2048x50400, .i1⟩
  | .hbm, ⟨9, _⟩ => ⟨S2x2048x50400, .f32⟩
  | .hbm, ⟨10, _⟩ => ⟨S2x2048x4096, .f32⟩
  | .hbm, ⟨11, _⟩ => ⟨S1x1x4096, .f32⟩
  | .hbm, ⟨12, _⟩ => ⟨S2x2048x4096, .f32⟩
  | .hbm, ⟨13, _⟩ => ⟨S2x2048x4096, .f32⟩
  | .hbm, ⟨14, _⟩ => ⟨S1x2048x4096, .f32⟩
  | .hbm, ⟨15, _⟩ => ⟨S2x2048x4096, .f32⟩
  | .hbm, ⟨16, _⟩ => ⟨S2x2048x4096, .f32⟩
  | _, _ => ⟨S2x2048, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩

abbrev nD : Nat := 1
abbrev τ : Topo := Topo.v7x

variable {F : FTy → Type} [FloatOps F]

class Facts₀ : Prop where
  bcast_S2x2048_S2x2048x1_0_1 : S2x2048.BroadcastsInDim S2x2048x1 (![0, 1] : Fin 2 → Fin S2x2048x1.rank)
  bcast_S2x2048x1_S2x2048x50400_0_1_2 : S2x2048x1.BroadcastsInDim S2x2048x50400 (![0, 1, 2] : Fin 3 → Fin S2x2048x50400.rank)
  bcast_S1x1x50400_S2x2048x50400_0_1_2 : S1x1x50400.BroadcastsInDim S2x2048x50400 (![0, 1, 2] : Fin 3 → Fin S2x2048x50400.rank)
  bcast_S4096_S1x1x4096_2 : S4096.BroadcastsInDim S1x1x4096 (![2] : Fin 1 → Fin S1x1x4096.rank)
  bcast_S1x1x4096_S2x2048x4096_0_1_2 : S1x1x4096.BroadcastsInDim S2x2048x4096 (![0, 1, 2] : Fin 3 → Fin S2x2048x4096.rank)
  bcast_S2048x4096_S1x2048x4096_1_2 : S2048x4096.BroadcastsInDim S1x2048x4096 (![1, 2] : Fin 2 → Fin S1x2048x4096.rank)
  bcast_S1x2048x4096_S2x2048x4096_0_1_2 : S1x2048x4096.BroadcastsInDim S2x2048x4096 (![0, 1, 2] : Fin 3 → Fin S2x2048x4096.rank)
  dot_S2x2048x50400_S50400x4096_S2x2048x4096_2_0_01_1_n_n_wf : DotDims.WF S2x2048x50400 S50400x4096 S2x2048x4096 [2] [0] [0, 1] [1] [] []

variable [Facts₀]

def dot_S2x2048x50400_S50400x4096_S2x2048x4096_2_0_01_1_n_n : DotDims S2x2048x50400 S50400x4096 S2x2048x4096 where
  lhsContracting := [2]
  rhsContracting := [0]
  lhsNonContracting := [0, 1]
  rhsNonContracting := [1]
  lhsBatch := []
  rhsBatch := []
  wf := dot_S2x2048x50400_S50400x4096_S2x2048x4096_2_0_01_1_n_n_wf

class Facts : Prop extends Facts₀ where

variable [Facts]
-- ==== Proof.OneHotSum.lean ====
/-
  The mathematics of a one-hot projection, stated once over plain extended-real sums.

  A token id `a` (a 32-bit word) selects row `a` of a table: the product of the indicator row `[a = v]` with the
  table is `∑ᵥ [a = v] · W v d`.  The table may be extended by zero rows past its last row without changing the sum,
  and the sum over the extended rows may be taken tile by tile (512 rows at a time) into a running total that starts
  at zero.  Only the commutative-monoid laws of `+` and `0 · w = 0`, `a · 0 = 0` are used: nothing here asks the
  table's entries to be finite.
-/
import Idealize.ShloMosaic.PureOps.Ideal
import Idealize.ShloMosaic.PureOps.Ideal.Laws
import Idealize.ShloMosaic.Lib.ValueIdx
import Idealize.ShloMosaic.Lib.StableHlo.Predicate

noncomputable section

open scoped BigOperators
open Idealize.ShloMosaic Idealize.ShloMosaic.ValueIdx

namespace Cert.OneHotSum

/-- The indicator that the token word `a` names vocabulary row `v`. -/
def ind (a : BitVec 32) (v : ℕ) : EReal := if a = BitVec.ofNat 32 v then 1 else 0

/-- Column `d` of the table, extended by zeros past row 50400. -/
def wpad (W : (⟨2, ![50400, 4096]⟩ : Shape).Idx → EReal) (d : Fin 4096) (v : ℕ) : EReal :=
  if h : v < 50400 then W (ix2 ⟨v, h⟩ d) else 0

/-- The running total over the first `n` rows of the extended table. -/
def upto (a : BitVec 32) (W : (⟨2, ![50400, 4096]⟩ : Shape).Idx → EReal) (d : Fin 4096) (n : ℕ) : EReal :=
  ∑ v ∈ Finset.range n, ind a v * wpad W d v

theorem upto_zero (a : BitVec 32) (W : (⟨2, ![50400, 4096]⟩ : Shape).Idx → EReal) (d : Fin 4096) : upto a W d 0 = 0 := by
  simp [upto]

/-- One more tile of 512 rows: the total over `(k+1)·512` rows is the total over `k·512` plus the tile's own sum. -/
theorem upto_tile (a : BitVec 32) (W : (⟨2, ![50400, 4096]⟩ : Shape).Idx → EReal) (d : Fin 4096) (k : ℕ) :
    upto a W d ((k + 1) * 512) = upto a W d (k * 512) + ∑ j : Fin 512, ind a (k * 512 + j.val) * wpad W d (k * 512 + j.val) := by
  unfold upto
  rw [show (k + 1) * 512 = k * 512 + 512 from by ring, Finset.sum_range_add]
  exact congrArg _ (Finset.sum_range fun x => ind a (k * 512 + x) * wpad W d (k * 512 + x))

/-- The zero rows add nothing: the total over all 50688 extended rows is the sum over the table's own 50400 rows. -/
theorem upto_all (a : BitVec 32) (W : (⟨2, ![50400, 4096]⟩ : Shape).Idx → EReal) (d : Fin 4096) :
    upto a W d 50688 = ∑ v : Fin 50400, ind a v.val * W (ix2 v d) := by
  unfold upto
  rw [show (50688 : ℕ) = 50400 + 288 from rfl, Finset.sum_range_add, Finset.sum_range]
  have hz : ∑ x ∈ Finset.range 288, ind a (50400 + x) * wpad W d (50400 + x) = 0 :=
    Finset.sum_eq_zero fun x _ => by
      rw [show wpad W d (50400 + x) = 0 from dif_neg (by omega), mul_zero]
  rw [hz, add_zero]
  exact Finset.sum_congr rfl fun v _ => by rw [show wpad W d v.val = W (ix2 v d) from dif_pos v.isLt]

/-! ## The two spellings of the indicator -/

/-- An integer equality test, widened to 32 bits and converted as a signed integer, is the indicator. -/
theorem sitofp_eq (a b : BitVec 32) :
    FloatOps.sitofp (F := Ideal) .f32 ((IntOp.cmpi .eq a b).setWidth 32) = if a = b then (1 : EReal) else 0 := by
  by_cases h : a = b
  · rw [if_pos h, StableHlo.Predicate.cmpi_eq_iff.mpr h]
    show ((((1#1 : BitVec 1).setWidth 32).toInt : ℝ) : EReal) = 1
    rw [show ((1#1 : BitVec 1).setWidth 32).toInt = 1 from by decide]; simp
  · rw [if_neg h, eq_zero_of_ne_one (fun e => h (StableHlo.Predicate.cmpi_eq_iff.mp e))]
    show ((((0#1 : BitVec 1).setWidth 32).toInt : ℝ) : EReal) = 0
    rw [show ((0#1 : BitVec 1).setWidth 32).toInt = 0 from by decide]; simp

/-- The same test converted directly from its one bit as an unsigned integer is the indicator too. -/
theorem uitofp_eq (a b : BitVec 32) :
    FloatOps.uitofp (F := Ideal) .f32 (IntOp.cmpi .eq a b) = if a = b then (1 : EReal) else 0 := by
  by_cases h : a = b
  · rw [if_pos h, StableHlo.Predicate.cmpi_eq_iff.mpr h]
    show ((((1#1 : BitVec 1)).toNat : ℝ) : EReal) = 1
    rw [show ((1#1 : BitVec 1)).toNat = 1 from by decide]; simp
  · rw [if_neg h, eq_zero_of_ne_one (fun e => h (StableHlo.Predicate.cmpi_eq_iff.mp e))]
    show ((((0#1 : BitVec 1)).toNat : ℝ) : EReal) = 0
    rw [show ((0#1 : BitVec 1)).toNat = 0 from by decide]; simp

/-- Row `k·512 + j` of tile `k` as the kernel spells it: the lane counter `j` plus the tile's base `k·512`, in 32-bit
    arithmetic, is the word of `k·512 + j` (no wrap: the sum stays below 50688). -/
theorem tile_row_word (k j : ℕ) (hk : k < 99) (hj : j < 512) :
    IntOp.addi (BitVec.ofNat 32 j) (IntOp.muli (BitVec.ofNat 32 k) 512#32) = BitVec.ofNat 32 (k * 512 + j) := by
  apply BitVec.eq_of_toNat_eq
  simp only [IntOp.addi, IntOp.muli, BitVec.toNat_add, BitVec.toNat_mul, BitVec.toNat_ofNat]
  omega

/-! ## The specification -/

/-- What both programs compute, index by index: entry `(b, s, d)` of the result is row `x[b, s]` of the (zero-extended)
    table at column `d`, spelt as the one-hot sum over all 50688 extended rows, plus the bias at `d`, plus the position
    table at `(s, d)`. -/
def G (x : (⟨2, ![2, 2048]⟩ : Shape).Idx → BitVec 32) (W : (⟨2, ![50400, 4096]⟩ : Shape).Idx → EReal)
    (b : (⟨1, ![4096]⟩ : Shape).Idx → EReal) (pos : (⟨2, ![2048, 4096]⟩ : Shape).Idx → EReal) :
    (⟨3, ![2, 2048, 4096]⟩ : Shape).Idx → EReal :=
  fun i => upto (x (ix2 (i 0) (i 1))) W (i 2) 50688 + b (ix1 (i 2)) + pos (ix2 (i 1) (i 2))

/-- The specification at explicit coordinates. -/
theorem G_ix3 (x : (⟨2, ![2, 2048]⟩ : Shape).Idx → BitVec 32) (W : (⟨2, ![50400, 4096]⟩ : Shape).Idx → EReal)
    (b : (⟨1, ![4096]⟩ : Shape).Idx → EReal) (pos : (⟨2, ![2048, 4096]⟩ : Shape).Idx → EReal)
    (bi : Fin 2) (s : Fin 2048) (d : Fin 4096) :
    G x W b pos (ix3 bi s d) = upto (x (ix2 bi s)) W d 50688 + b (ix1 d) + pos (ix2 s d) := rfl

end Cert.OneHotSum

end
-- ==== Proof.RefValue.lean ====
/-
  The reference, read index by index, is the specification.

  The reference builds the one-hot array `[x[b,s] = v]` over the 50400 vocabulary rows (an equality test against an
  iota, converted from its one bit), contracts it with the table over `v`, and adds the bias and the position table,
  each broadcast along the axes it lacks.  Entry `(b, s, d)` is therefore `∑ᵥ [x[b,s] = v] · W[v,d] + bias[d] + pos[s,d]`,
  and the zero rows of the extended table add nothing to that sum.
-/
import proofs.«163709_j39307540693313_1_alg».proof.Proof.Gen.ReferenceIdeal.Read
import proofs.«163709_j39307540693313_1_alg».proof.Proof.OneHotSum

noncomputable section

open scoped BigOperators
open Idealize.ShloMosaic Idealize.ShloMosaic.ValueIdx

namespace Cert.ReferenceIdeal.RefValue

open Cert.ReferenceIdeal Cert.ReferenceIdeal.Gen Cert.ReferenceIdeal.Read Cert.OneHotSum

/-- The reference's one-hot array at `(b, s, v)` is the indicator that token `x[b,s]` names row `v`. -/
theorem onehot_apply (x0 : S2x2048.Idx → BitVec 32) (b : Fin 2) (s : Fin 2048) (d : Fin 4096) (k : Fin 50400) :
    val_main_v0 (F := Ideal) x0 (lidx_main_v1 (ix3 b s d) k) = ind (x0 (ix2 b s)) k.val := by
  rw [val_main_v0_apply, val_main_call0_v4_apply, val_main_call0_v2_apply, val_main_call0_v0_apply,
    val_main_call0_v3_apply, val_main_call0_v1_apply, uitofp_eq]
  have e : idx_main_call0_v0 (idx_main_call0_v2 (lidx_main_v1 (ix3 b s d) k)) = ix2 b s :=
    funext fun a => Fin.ext (by match a with | ⟨0, _⟩ => rfl | ⟨1, _⟩ => rfl)
  rw [e]
  rfl

/-- The reference's result at `(b, s, d)` is the specification there. -/
theorem ref_apply (x0 : S2x2048.Idx → BitVec 32) (x1 : S50400x4096.Idx → EReal) (x2 : S4096.Idx → EReal)
    (x3 : S2048x4096.Idx → EReal) (b : Fin 2) (s : Fin 2048) (d : Fin 4096) :
    val_main_v7 (F := Ideal) x0 x1 x2 x3 (ix3 b s d) = G x0 x1 x2 x3 (ix3 b s d) := by
  rw [G_ix3, upto_all, val_main_v7_apply, val_main_v4_apply, val_main_v1_apply, val_main_v3_apply, val_main_v2_apply,
    val_main_v6_apply, val_main_v5_apply]
  have e1 : idx_main_v2 (idx_main_v3 (ix3 b s d)) = ix1 d :=
    funext fun a => Fin.ext (by match a with | ⟨0, _⟩ => rfl)
  have e2 : idx_main_v5 (idx_main_v6 (ix3 b s d)) = ix2 s d :=
    funext fun a => Fin.ext (by match a with | ⟨0, _⟩ => rfl | ⟨1, _⟩ => rfl)
  rw [e1, e2]
  simp only [Ideal.addf_def]
  refine congrArg₂ (· + ·) (congrArg₂ (· + ·) ?_ rfl) rfl
  refine Finset.sum_congr rfl fun k _ => ?_
  rw [onehot_apply]
  have e3 : ridx_main_v1 (ix3 b s d) k = ix2 k d :=
    funext fun a => Fin.ext (by match a with | ⟨0, _⟩ => rfl | ⟨1, _⟩ => rfl)
  rw [e3]

/-- The reference's result is the specification of its four arguments. -/
theorem ref_eq_G (x0 : S2x2048.Idx → BitVec 32) (x1 : S50400x4096.Idx → EReal) (x2 : S4096.Idx → EReal)
    (x3 : S2048x4096.Idx → EReal) :
    val_main_v7 (F := Ideal) x0 x1 x2 x3 = G x0 x1 x2 x3 :=
  funext fun i => by
    obtain ⟨b, s, d, rfl⟩ : ∃ (b : Fin 2) (s : Fin 2048) (d : Fin 4096), i = ix3 b s d := ⟨i 0, i 1, i 2, eq_ix3 i⟩
    exact ref_apply x0 x1 x2 x3 b s d

end Cert.ReferenceIdeal.RefValue

end
-- ==== Proof.Payload.lean ====
/-
  The kernel body's arithmetic, read one element at a time over the extended reals.

  At grid point `(mi, ni, k)` the body holds a block of 256 tokens for each of the two batch rows, and a tile of 512
  table rows by 2048 columns.  For batch row `bi` it forms the 256 × 512 indicator `[tok r = k·512 + j]` (an integer
  equality against a lane counter offset by the tile's base), multiplies it into the tile on the matrix unit starting
  from zero, and adds the product to the accumulator's row `bi`.  So accumulator entry `(bi, r, c)` grows by
  `∑ⱼ [tok r = k·512 + j] · tile (j, c)`.  At the last tile the result block is the accumulator plus the bias row plus
  the position block.  The changes of float format in the body are identities over the extended reals.
-/
import proofs.«163709_j39307540693313_1_alg».proof.Proof.Gen.KernelIdeal.Skeleton
import proofs.«163709_j39307540693313_1_alg».proof.Proof.OneHotSum
import Idealize.ShloMosaic.Lib.ValueIdx
import Idealize.ShloMosaic.Lib.ValueLayout
import Idealize.ShloMosaic.Lib.Pipeline.Value
import Idealize.ShloMosaic.PureOps.Ideal.Laws

noncomputable section

open scoped BigOperators
open Idealize.ShloMosaic Idealize.ShloMosaic.ValueIdx

namespace Cert.KernelIdeal.Pay

open Cert.KernelIdeal Cert.KernelIdeal.Gen Cert.OneHotSum

/-! ## The matrix product of one tile -/

theorem lhs_mm_0 (i : S256x2048.Idx) (q : dot_S256x512_S512x2048_S256x2048_1_0_0_1_n_n.contr.Idx) :
    (dot_S256x512_S512x2048_S256x2048_1_0_0_1_n_n.lhsIdx i q 0).val = (i 0).val := by
  unfold DotDims.lhsIdx
  rw [dif_neg (show ¬(0 : Fin S256x512.rank) ∈ dot_S256x512_S512x2048_S256x2048_1_0_0_1_n_n.lhsBatch by decide), dif_pos (show (0 : Fin S256x512.rank) ∈ dot_S256x512_S512x2048_S256x2048_1_0_0_1_n_n.lhsNonContracting by decide)]
  rfl
theorem lhs_mm_1 (i : S256x2048.Idx) (q : dot_S256x512_S512x2048_S256x2048_1_0_0_1_n_n.contr.Idx) :
    (dot_S256x512_S512x2048_S256x2048_1_0_0_1_n_n.lhsIdx i q 1).val = (q ⟨0, by decide⟩).val :=
  dot_S256x512_S512x2048_S256x2048_1_0_0_1_n_n.lhsIdx_val_of_single rfl i q
theorem rhs_mm_0 (i : S256x2048.Idx) (q : dot_S256x512_S512x2048_S256x2048_1_0_0_1_n_n.contr.Idx) :
    (dot_S256x512_S512x2048_S256x2048_1_0_0_1_n_n.rhsIdx i q 0).val = (q ⟨0, by decide⟩).val :=
  dot_S256x512_S512x2048_S256x2048_1_0_0_1_n_n.rhsIdx_val_of_single rfl i q
theorem rhs_mm_1 (i : S256x2048.Idx) (q : dot_S256x512_S512x2048_S256x2048_1_0_0_1_n_n.contr.Idx) :
    (dot_S256x512_S512x2048_S256x2048_1_0_0_1_n_n.rhsIdx i q 1).val = (i 1).val := by
  unfold DotDims.rhsIdx
  rw [dif_neg (show ¬(1 : Fin S512x2048.rank) ∈ dot_S256x512_S512x2048_S256x2048_1_0_0_1_n_n.rhsBatch by decide), dif_pos (show (1 : Fin S512x2048.rank) ∈ dot_S256x512_S512x2048_S256x2048_1_0_0_1_n_n.rhsNonContracting by decide)]
  rfl

/-- A 256 × 512 by 512 × 2048 product into the zero block, at `(r, c)`: the plain sum over the 512 shared positions. -/
theorem matmul_tile (lhs : FVec Ideal S256x512 .bf16) (rhs : FVec Ideal S512x2048 .bf16) (r : Fin 256) (cc : Fin 2048) :
    matmul dot_S256x512_S512x2048_S256x2048_1_0_0_1_n_n none lhs rhs (constant S256x2048 .f32 0x00000000#32) (ix2 r cc)
      = ∑ j : Fin 512, lhs (ix2 r j) * rhs (ix2 j cc) := by
  simp only [matmul]
  rw [Ideal.matmul_constant_zero_apply, ← Equiv.sum_comp (contrEquiv1 dot_S256x512_S512x2048_S256x2048_1_0_0_1_n_n 512 rfl rfl).symm]
  refine Finset.sum_congr rfl fun k _ => ?_
  have hk := contrEquiv1_symm_val dot_S256x512_S512x2048_S256x2048_1_0_0_1_n_n 512 rfl rfl k
  have el : dot_S256x512_S512x2048_S256x2048_1_0_0_1_n_n.lhsIdx (ix2 r cc) ((contrEquiv1 dot_S256x512_S512x2048_S256x2048_1_0_0_1_n_n 512 rfl rfl).symm k) = ix2 r k := funext fun a => Fin.ext (by
    match a with
    | ⟨0, _⟩ => exact lhs_mm_0 _ _
    | ⟨1, _⟩ => exact (lhs_mm_1 _ _).trans hk)
  have er : dot_S256x512_S512x2048_S256x2048_1_0_0_1_n_n.rhsIdx (ix2 r cc) ((contrEquiv1 dot_S256x512_S512x2048_S256x2048_1_0_0_1_n_n 512 rfl rfl).symm k) = ix2 k cc := funext fun a => Fin.ext (by
    match a with
    | ⟨0, _⟩ => exact (rhs_mm_0 _ _).trans hk
    | ⟨1, _⟩ => exact rhs_mm_1 _ _)
  rw [el, er]

/-! ## The indicator block -/

/-- The lane counter plus the tile's base, at `(r, j)`: the word of `k·512 + j`. -/
theorem rowword_apply (i : grid0.Coords) (hk : (i 2).val < 99) (r : Fin 256) (j : Fin 512) :
    k0_pay6 i (ix2 r j) = BitVec.ofNat 32 ((i 2).val * 512 + j.val) := by
  unfold k0_pay6
  dsimp only
  refine Eq.trans ?_ (tile_row_word (i 2).val j.val hk j.isLt)
  show IntOp.addi (iota .tc S256x512 32 [1] _ (ix2 r j)) _ = _
  rw [iota_single_apply]
  rfl

/-- A token row `[1, 256]` turned into a column and spread over 512 lanes reads token `r` at every `(r, j)`. -/
theorem tokcol_apply (v : Vec Ideal S1x256 .i32) (h1 : S1x256.ShapeCasts S256) (h2 : S256.ShapeCasts S256x1)
    (h3 : S256x1.Broadcasts S256x512) (r : Fin 256) (j : Fin 512) :
    broadcastTo S256x512 (shapeCast S256x1 (shapeCast S256 v h1) h2) h3 (ix2 r j) = v (ix2 (0 : Fin 1) r) := by
  refine (broadcastTo_apply _ h3 (ix2 r j) (ix2 r (0 : Fin 1)) fun a => ?_).trans ?_
  · match a with
    | ⟨0, _⟩ => show r.val = if (256 : Nat) = 1 then 0 else r.val; rw [if_neg (by decide)]
    | ⟨1, _⟩ => show 0 = if (1 : Nat) = 1 then 0 else j.val; rw [if_pos rfl]
  refine (shapeCast_apply _ h2 (ix2 r (0 : Fin 1)) (ix1 r) ?_).trans ?_
  · rw [Shape.rowMajor_val_one, Shape.rowMajor_val_two]
    show r.val = r.val * 1 + 0
    omega
  exact shapeCast_1a_a_apply v h1 r

/-- The indicator block at `(r, j)`: whether token `r` names row `k·512 + j`. -/
theorem onehot_apply (i : grid0.Coords) (hk : (i 2).val < 99) (v : Vec Ideal S1x256 .i32) (h1 : S1x256.ShapeCasts S256)
    (h2 : S256.ShapeCasts S256x1) (h3 : S256x1.Broadcasts S256x512) (h4 : 1 < 32) (h5 : FTy.bits .bf16 < FTy.bits .f32)
    (r : Fin 256) (j : Fin 512) :
    (truncf .bf16 (sitofp .f32 (extui 32 (cmpi .eq (broadcastTo S256x512 (shapeCast S256x1 (shapeCast S256 v h1) h2) h3) (k0_pay6 i)) h4)) h5 : FVec Ideal S256x512 .bf16) (ix2 r j)
      = ind (v (ix2 (0 : Fin 1) r)) ((i 2).val * 512 + j.val) := by
  show FloatOps.sitofp (F := Ideal) .f32 ((IntOp.cmpi .eq (broadcastTo S256x512 (shapeCast S256x1 (shapeCast S256 v h1) h2) h3 (ix2 r j)) (k0_pay6 i (ix2 r j))).setWidth 32) = _
  rw [sitofp_eq, tokcol_apply, rowword_apply i hk]
  rfl

/-- The tile itself passes through its change of format unchanged. -/
theorem tile_apply (v7 : Vec Ideal S512x2048 .f32) (j : Fin 512) (cc : Fin 2048) : k0_pay7 v7 (ix2 j cc) = v7 (ix2 j cc) := by
  unfold k0_pay7
  show shapeCast S512x2048 v7 _ (ix2 j cc) = _
  rw [shapeCast_self]

/-! ## The stores' payloads -/

/-- Batch row 0's update: accumulator row 0 plus the tile's one-hot product. -/
theorem pay8_apply (i : grid0.Coords) (hk : (i 2).val < 99) (v7 : Vec Ideal S512x2048 .f32) (v10 : Vec Ideal S1x256 .i32)
    (v19 : Vec Ideal S1x256x2048 .f32) (z : Fin 1) (r : Fin 256) (cc : Fin 2048) :
    k0_pay8 i v7 v10 v19 (ix3 z r cc)
      = v19 (ix3 (0 : Fin 1) r cc) + ∑ j : Fin 512, ind (v10 (ix2 (0 : Fin 1) r)) ((i 2).val * 512 + j.val) * v7 (ix2 j cc) := by
  unfold k0_pay8
  dsimp only
  refine (shapeCast_ab_1ab_apply _ _ z r cc).trans ?_
  refine congrArg₂ (· + ·) (shapeCast_1ab_ab_apply v19 _ r cc) ?_
  refine (matmul_tile _ _ r cc).trans ?_
  refine Finset.sum_congr rfl fun j _ => ?_
  exact congrArg₂ (· * ·) (onehot_apply i hk v10 _ _ _ _ _ r j) (tile_apply v7 j cc)

/-- Batch row 1's update, the same with its own tokens and accumulator row. -/
theorem pay1_apply (i : grid0.Coords) (hk : (i 2).val < 99) (v7 : Vec Ideal S512x2048 .f32) (v25 : Vec Ideal S1x256 .i32)
    (v34 : Vec Ideal S1x256x2048 .f32) (z : Fin 1) (r : Fin 256) (cc : Fin 2048) :
    k0_pay1 (k0_pay9 i v7 v25) v34 (ix3 z r cc)
      = v34 (ix3 (0 : Fin 1) r cc) + ∑ j : Fin 512, ind (v25 (ix2 (0 : Fin 1) r)) ((i 2).val * 512 + j.val) * v7 (ix2 j cc) := by
  unfold k0_pay1 k0_pay9
  dsimp only
  refine (shapeCast_ab_1ab_apply _ _ z r cc).trans ?_
  refine congrArg₂ (· + ·) (shapeCast_1ab_ab_apply v34 _ r cc) ?_
  refine (matmul_tile _ _ r cc).trans ?_
  refine Finset.sum_congr rfl fun j _ => ?_
  exact congrArg₂ (· * ·) (onehot_apply i hk v25 _ _ _ _ _ r j) (tile_apply v7 j cc)

/-- The closing store of batch row 0: accumulator row plus bias plus position block. -/
theorem pay3_apply (v43 : Vec Ideal S1x2048 .f32) (v45 : Vec Ideal S256x2048 .f32) (v46 : Vec Ideal S1x256x2048 .f32)
    (z : Fin 1) (r : Fin 256) (cc : Fin 2048) :
    k0_pay3 v43 v45 v46 (ix3 z r cc) = v46 (ix3 (0 : Fin 1) r cc) + v43 (ix2 (0 : Fin 1) cc) + v45 (ix2 r cc) := by
  unfold k0_pay3 k0_pay2
  dsimp only
  refine (shapeCast_ab_1ab_apply _ _ z r cc).trans ?_
  refine congrArg₂ (· + ·) (congrArg₂ (· + ·) (shapeCast_1ab_ab_apply v46 _ r cc) ?_) rfl
  refine (broadcastTo_1b_ab_apply _ _ r cc).trans ?_
  rw [shapeCast_self]

/-- The closing store of batch row 1. -/
theorem pay4_apply (v43 : Vec Ideal S1x2048 .f32) (v45 : Vec Ideal S256x2048 .f32) (v54 : Vec Ideal S1x256x2048 .f32)
    (z : Fin 1) (r : Fin 256) (cc : Fin 2048) :
    k0_pay4 v43 v45 v54 (ix3 z r cc) = v54 (ix3 (0 : Fin 1) r cc) + v43 (ix2 (0 : Fin 1) cc) + v45 (ix2 r cc) := by
  unfold k0_pay4 k0_pay2
  dsimp only
  refine (shapeCast_ab_1ab_apply _ _ z r cc).trans ?_
  refine congrArg₂ (· + ·) (congrArg₂ (· + ·) (shapeCast_1ab_ab_apply v54 _ r cc) ?_) rfl
  refine (broadcastTo_1b_ab_apply _ _ r cc).trans ?_
  rw [shapeCast_self]

/-- The reset block is zero everywhere. -/
theorem pay5_apply (y : S2x256x2048.Idx) : (k0_pay5 (F := Ideal)) y = 0 := by
  unfold k0_pay5
  rw [shapeCast_self]
  show Ideal.ofBits .f32 0x00000000#32 = 0
  exact Ideal.ofBits_zero_f32

end Cert.KernelIdeal.Pay

end
-- ==== Proof.Step.lean ====
/-
  What one grid point leaves in the accumulator, and in the result block at the last tile.

  The body writes the accumulator one batch row at a time: row 0 through the rectangle `[0, :, :]`, row 1 through
  `[1, :, :]`; each store's payload reads the tokens of its batch row, the whole tile, and the accumulator's own row
  as the point found it.  At a first tile the accumulator is first filled with zeros and the rows read those zeros
  back.  At a last tile the result block is written the same way from the freshly updated rows.  Read at an index
  `(bi, r, c)`, every one of these is: the row's old entry plus `∑ⱼ [tok (bi, r) = k·512 + j] · tile (j, c)`.
-/
import proofs.«163709_j39307540693313_1_alg».proof.Proof.Gen.KernelIdeal.Frame
import proofs.«163709_j39307540693313_1_alg».proof.Proof.Payload
import Idealize.ShloMosaic.Lib.Pipeline.Value
import Idealize.ShloMosaic.Lib.Tactic

noncomputable section

open scoped BigOperators
open Idealize.ShloMosaic Idealize.ShloMosaic.TcCoe Idealize.SL.Sem Idealize.ShloMosaic.ValueIdx

namespace Cert.KernelIdeal.Acc

open Cert.KernelIdeal Cert.KernelIdeal.Gen Cert.OneHotSum

variable {F : FTy → Type} [FloatOps F]

/-! ## The rectangles the body reads and writes through -/

/-- Batch row 0 of the accumulator or of the result block. -/
abbrev row0 : Rect S2x256x2048 := Rect.unit ![0, 0, 0] ![1, 256, 2048] inb_S2x256x2048_S1x256x2048_0_0_0
/-- Batch row 1. -/
abbrev row1 : Rect S2x256x2048 := Rect.unit ![1, 0, 0] ![1, 256, 2048] inb_S2x256x2048_S1x256x2048_1_0_0
/-- The whole accumulator. -/
abbrev whole : Rect S2x256x2048 := Rect.unit ![0, 0, 0] ![2, 256, 2048] inb_S2x256x2048_S2x256x2048_0_0_0
/-- The tokens of batch row 0, and of batch row 1. -/
abbrev tok0 : Rect S2x256 := Rect.unit ![0, 0] ![1, 256] inb_S2x256_S1x256_0_0
abbrev tok1 : Rect S2x256 := Rect.unit ![1, 0] ![1, 256] inb_S2x256_S1x256_1_0
/-- The whole tile, bias row and position block. -/
abbrev tileR : Rect S512x2048 := Rect.unit ![0, 0] ![512, 2048] inb_S512x2048_S512x2048_0_0
abbrev biasR : Rect S1x2048 := Rect.unit ![0, 0] ![1, 2048] inb_S1x2048_S1x2048_0_0
abbrev posR : Rect S256x2048 := Rect.unit ![0, 0] ![256, 2048] inb_S256x2048_S256x2048_0_0

/-- The accumulator after a point that found it at `acc`: both rows updated (`L`: whatever was written before them). -/
def step (i : grid0.Coords) (x0 : Vec F S2x256 .i32) (x1 : Vec F S512x2048 .f32) (acc : Vec F S2x256x2048 .f32)
    (L : List (View.Piece (Elt F) S2x256x2048 .f32)) : Vec F S2x256x2048 .f32 :=
  View.canon
    (⟨row1, k0_pay1 (k0_pay9 i (View.ld x1 tileR) (View.ld x0 tok1)) (View.ld acc row1)⟩ ::
     ⟨row0, k0_pay8 i (View.ld x1 tileR) (View.ld x0 tok0) (View.ld acc row0)⟩ :: L)

/-- The result block written at a last tile from the updated accumulator `acc`. -/
def close (x2 : Vec F S256x2048 .f32) (x3 : Vec F S1x2048 .f32) (acc : Vec F S2x256x2048 .f32) : Vec F S2x256x2048 .f32 :=
  View.canon
    [⟨row1, k0_pay4 (View.ld x3 biasR) (View.ld x2 posR) (View.ld acc row1)⟩,
     ⟨row0, k0_pay3 (View.ld x3 biasR) (View.ld x2 posR) (View.ld acc row0)⟩]

/-! ## The cases' found pieces are these functions -/

theorem hz3 : (![0, 0, 0] : Fin 3 → Nat) = fun _ => 0 := funext fun a => by fin_cases a <;> rfl

/-- A middle tile: the accumulator the point before left, updated. -/
theorem sout_B (c : Dev nD) (i : grid0.Coords) (a3 : Memref sig .tc .vmem S2x256 .i32) (h3 : a3.IsWhole) (a4 : Memref sig .tc .vmem S512x2048 .f32) (h4 : a4.IsWhole) (a5 : Memref sig .tc .vmem S256x2048 .f32) (h5 : a5.IsWhole) (a6 : Memref sig .tc .vmem S1x2048 .f32) (h6 : a6.IsWhole) (a7 : Memref sig .tc .vmem S2x256x2048 .f32) (h7 : a7.IsWhole) (a8 : Memref sig .tc .vmem S2x256x2048 .f32) (h8 : a8.IsWhole) (hc0 : ¬cond0_0 i) (hc1 : ¬cond0_1 i) (x0 : Vec F S2x256 .i32) (x1 : Vec F S512x2048 .f32) (x2 : Vec F S256x2048 .f32) (x3 : Vec F S1x2048 .f32) (xs0 : Vec F S2x256x2048 .f32) :
    sout0_B_0 c i a3 h3 a4 h4 a5 h5 a6 h6 a7 h7 a8 h8 hc0 hc1 x0 x1 x2 x3 xs0 = step i x0 x1 xs0 [] := by
  unfold sout0_B_0
  rw [View.read_writes_eq_canon _ _ _ (scover0_B_0 c i a3 h3 a4 h4 a5 h5 a6 h6 a7 h7 a8 h8 hc0 hc1 x0 x1 x2 x3 xs0)]
  unfold kernelRun0_B
  dsimp only
  sl_unfold_words
  simp only [View.readAt_eq_ld, h3.read_unread, h4.read_unread, h8.read_unread]
  rfl

/-- A last tile: the same update of the accumulator. -/
theorem sout_C (c : Dev nD) (i : grid0.Coords) (a3 : Memref sig .tc .vmem S2x256 .i32) (h3 : a3.IsWhole) (a4 : Memref sig .tc .vmem S512x2048 .f32) (h4 : a4.IsWhole) (a5 : Memref sig .tc .vmem S256x2048 .f32) (h5 : a5.IsWhole) (a6 : Memref sig .tc .vmem S1x2048 .f32) (h6 : a6.IsWhole) (a7 : Memref sig .tc .vmem S2x256x2048 .f32) (h7 : a7.IsWhole) (a8 : Memref sig .tc .vmem S2x256x2048 .f32) (h8 : a8.IsWhole) (hc0 : ¬cond0_0 i) (hc1 : cond0_1 i) (x0 : Vec F S2x256 .i32) (x1 : Vec F S512x2048 .f32) (x2 : Vec F S256x2048 .f32) (x3 : Vec F S1x2048 .f32) (xs0 : Vec F S2x256x2048 .f32) :
    sout0_C_0 c i a3 h3 a4 h4 a5 h5 a6 h6 a7 h7 a8 h8 hc0 hc1 x0 x1 x2 x3 xs0 = step i x0 x1 xs0 [] := by
  unfold sout0_C_0
  rw [View.read_writes_eq_canon _ _ _ (scover0_C_0 c i a3 h3 a4 h4 a5 h5 a6 h6 a7 h7 a8 h8 hc0 hc1 x0 x1 x2 x3 xs0)]
  unfold kernelRun0_C
  dsimp only
  sl_unfold_words
  simp only [View.readAt_eq_ld, h3.read_unread, h4.read_unread, h5.read_unread, h6.read_unread, h8.read_unread]
  rfl

/-- A last tile's result block: written from the updated accumulator. -/
theorem out_C (c : Dev nD) (i : grid0.Coords) (a3 : Memref sig .tc .vmem S2x256 .i32) (h3 : a3.IsWhole) (a4 : Memref sig .tc .vmem S512x2048 .f32) (h4 : a4.IsWhole) (a5 : Memref sig .tc .vmem S256x2048 .f32) (h5 : a5.IsWhole) (a6 : Memref sig .tc .vmem S1x2048 .f32) (h6 : a6.IsWhole) (a7 : Memref sig .tc .vmem S2x256x2048 .f32) (h7 : a7.IsWhole) (a8 : Memref sig .tc .vmem S2x256x2048 .f32) (h8 : a8.IsWhole) (hc0 : ¬cond0_0 i) (hc1 : cond0_1 i) (x0 : Vec F S2x256 .i32) (x1 : Vec F S512x2048 .f32) (x2 : Vec F S256x2048 .f32) (x3 : Vec F S1x2048 .f32) (xs0 : Vec F S2x256x2048 .f32) :
    out0_C_4 c i a3 h3 a4 h4 a5 h5 a6 h6 a7 h7 a8 h8 hc0 hc1 x0 x1 x2 x3 xs0 = close x2 x3 (step i x0 x1 xs0 []) := by
  unfold out0_C_4
  rw [View.read_writes_eq_canon _ _ _ (cover0_C_4 c i a3 h3 a4 h4 a5 h5 a6 h6 a7 h7 a8 h8 hc0 hc1 x0 x1 x2 x3 xs0)]
  unfold kernelRun0_C
  dsimp only
  sl_unfold_words
  simp only [View.readAt_eq_ld, h3.read_unread, h4.read_unread, h5.read_unread, h6.read_unread, h8.read_unread,
    View.readCov_eq_canon']
  rfl

/-- A first tile: the accumulator zeroed whole, then both rows updated reading the zeros back. -/
theorem sout_A (c : Dev nD) (i : grid0.Coords) (a3 : Memref sig .tc .vmem S2x256 .i32) (h3 : a3.IsWhole) (a4 : Memref sig .tc .vmem S512x2048 .f32) (h4 : a4.IsWhole) (a5 : Memref sig .tc .vmem S256x2048 .f32) (h5 : a5.IsWhole) (a6 : Memref sig .tc .vmem S1x2048 .f32) (h6 : a6.IsWhole) (a7 : Memref sig .tc .vmem S2x256x2048 .f32) (h7 : a7.IsWhole) (a8 : Memref sig .tc .vmem S2x256x2048 .f32) (h8 : a8.IsWhole) (hc0 : cond0_0 i) (hc1 : ¬cond0_1 i) (x0 : Vec F S2x256 .i32) (x1 : Vec F S512x2048 .f32) (x2 : Vec F S256x2048 .f32) (x3 : Vec F S1x2048 .f32) :
    sout0_A_0 c i a3 h3 a4 h4 a5 h5 a6 h6 a7 h7 a8 h8 hc0 hc1 x0 x1 x2 x3 = step i x0 x1 (k0_pay5 (F := F)) [⟨whole, k0_pay5⟩] := by
  unfold sout0_A_0
  rw [View.read_writes_eq_canon _ _ _ (scover0_A_0 c i a3 h3 a4 h4 a5 h5 a6 h6 a7 h7 a8 h8 hc0 hc1 x0 x1 x2 x3)]
  unfold kernelRun0_A
  dsimp only
  sl_unfold_words
  simp only [View.readAt_eq_ld, h3.read_unread, h4.read_unread, h8.read_unread]
  have e0 : a8.view.readCov [(⟨whole, k0_pay5⟩ : View.Piece (Elt F) S2x256x2048 .f32)] row0.toLoadRect = View.ld (k0_pay5 (F := F)) row0 := by
    rw [View.readCov_eq_canon']
    funext j
    show View.canon [(⟨whole, k0_pay5⟩ : View.Piece (Elt F) S2x256x2048 .f32)] (row0.toLoadRect.idx j) = k0_pay5 (F := F) (row0.emb j)
    rw [View.canon_unit_zero (S := S2x256x2048) hz3]
    rfl
  have e1 : ∀ w0 : row0.shape.Idx → Elt F .f32, a8.view.readCov [(⟨row0, w0⟩ : View.Piece (Elt F) S2x256x2048 .f32), ⟨whole, k0_pay5⟩] row1.toLoadRect = View.ld (k0_pay5 (F := F)) row1 := by
    intro w0
    rw [View.readCov_eq_canon']
    funext j
    have hm : row1.toLoadRect.idx j ∉ row0.set := fun hm =>
      absurd ((Rect.mem_set_unit.mp hm) (0 : Fin 3)).2 (by show ¬(1 + 1 * (j (0 : Fin 3)).val < 0 + 1); omega)
    show View.canon [(⟨row0, w0⟩ : View.Piece (Elt F) S2x256x2048 .f32), ⟨whole, k0_pay5⟩] (row1.toLoadRect.idx j) = k0_pay5 (F := F) (row1.emb j)
    refine (View.canon_cons_of_not_mem (⟨row0, w0⟩ : View.Piece (Elt F) S2x256x2048 .f32) [⟨whole, k0_pay5⟩] hm).trans ?_
    rw [View.canon_unit_zero (S := S2x256x2048) hz3]
    rfl
  rw [e0, e1]
  rfl

end Cert.KernelIdeal.Acc

end
-- ==== Proof.StepValue.lean ====
/-
  The accumulator step and the closing store, read at an index over the extended reals.

  Entry `(bi, r, c)` of the updated accumulator is the old entry plus the one-hot product of token `(bi, r)` with
  column `c` of the tile; entry `(bi, r, c)` of the result block is the accumulator's entry plus the bias at `c`
  plus the position block's entry `(r, c)`.
-/
import proofs.«163709_j39307540693313_1_alg».proof.Proof.Step

noncomputable section

open scoped BigOperators
open Idealize.ShloMosaic Idealize.ShloMosaic.TcCoe Idealize.SL.Sem Idealize.ShloMosaic.ValueIdx

namespace Cert.KernelIdeal.Acc

open Cert.KernelIdeal Cert.KernelIdeal.Gen Cert.OneHotSum

/-! ## Reading through the rectangles -/

theorem emb_row0 (r : Fin 256) (cc : Fin 2048) : row0.emb (ix3 (0 : Fin 1) r cc) = ix3 (0 : Fin 2) r cc :=
  funext fun a => Fin.ext (by
    match a with
    | ⟨0, _⟩ => rfl
    | ⟨1, _⟩ => show 0 + 1 * r.val = r.val; omega
    | ⟨2, _⟩ => show 0 + 1 * cc.val = cc.val; omega)

theorem emb_row1 (r : Fin 256) (cc : Fin 2048) : row1.emb (ix3 (0 : Fin 1) r cc) = ix3 (1 : Fin 2) r cc :=
  funext fun a => Fin.ext (by
    match a with
    | ⟨0, _⟩ => rfl
    | ⟨1, _⟩ => show 0 + 1 * r.val = r.val; omega
    | ⟨2, _⟩ => show 0 + 1 * cc.val = cc.val; omega)

theorem ld_row0 (acc : Vec Ideal S2x256x2048 .f32) (r : Fin 256) (cc : Fin 2048) :
    View.ld acc row0 (ix3 (0 : Fin 1) r cc) = acc (ix3 (0 : Fin 2) r cc) := congrArg acc (emb_row0 r cc)

theorem ld_row1 (acc : Vec Ideal S2x256x2048 .f32) (r : Fin 256) (cc : Fin 2048) :
    View.ld acc row1 (ix3 (0 : Fin 1) r cc) = acc (ix3 (1 : Fin 2) r cc) := congrArg acc (emb_row1 r cc)

theorem ld_tok0 (x0 : Vec Ideal S2x256 .i32) (r : Fin 256) : View.ld x0 tok0 (ix2 (0 : Fin 1) r) = x0 (ix2 (0 : Fin 2) r) :=
  congrArg x0 (funext fun a => Fin.ext (by
    match a with
    | ⟨0, _⟩ => rfl
    | ⟨1, _⟩ => show 0 + 1 * r.val = r.val; omega))

theorem ld_tok1 (x0 : Vec Ideal S2x256 .i32) (r : Fin 256) : View.ld x0 tok1 (ix2 (0 : Fin 1) r) = x0 (ix2 (1 : Fin 2) r) :=
  congrArg x0 (funext fun a => Fin.ext (by
    match a with
    | ⟨0, _⟩ => rfl
    | ⟨1, _⟩ => show 0 + 1 * r.val = r.val; omega))

theorem hz2 : (![0, 0] : Fin 2 → Nat) = fun _ => 0 := funext fun a => by fin_cases a <;> rfl

theorem ld_tile (x1 : Vec Ideal S512x2048 .f32) : View.ld x1 tileR = x1 := View.ld_unit_zero (S := S512x2048) hz2 _ x1
theorem ld_bias (x3 : Vec Ideal S1x2048 .f32) : View.ld x3 biasR = x3 := View.ld_unit_zero (S := S1x2048) hz2 _ x3
theorem ld_pos (x2 : Vec Ideal S256x2048 .f32) : View.ld x2 posR = x2 := View.ld_unit_zero (S := S256x2048) hz2 _ x2

/-! ## Two stacked row stores, read at a row -/

/-- Row 1's store came last: at `(1, r, c)` the contents are its payload. -/
theorem canon_row1 (w1 : row1.shape.Idx → Elt Ideal .f32) (L : List (View.Piece (Elt Ideal) S2x256x2048 .f32))
    (r : Fin 256) (cc : Fin 2048) :
    View.canon ((⟨row1, w1⟩ : View.Piece (Elt Ideal) S2x256x2048 .f32) :: L) (ix3 (1 : Fin 2) r cc) = w1 (ix3 (0 : Fin 1) r cc) := by
  rw [← emb_row1 r cc]
  exact View.canon_cons_emb row1 w1 L _

/-- Row 1's store does not touch `(0, r, c)`: there the contents are row 0's payload. -/
theorem canon_row0 (w1 : row1.shape.Idx → Elt Ideal .f32) (w0 : row0.shape.Idx → Elt Ideal .f32)
    (L : List (View.Piece (Elt Ideal) S2x256x2048 .f32)) (r : Fin 256) (cc : Fin 2048) :
    View.canon ((⟨row1, w1⟩ : View.Piece (Elt Ideal) S2x256x2048 .f32) :: ⟨row0, w0⟩ :: L) (ix3 (0 : Fin 2) r cc) = w0 (ix3 (0 : Fin 1) r cc) := by
  have hm : (ix3 (0 : Fin 2) r cc : S2x256x2048.Idx) ∉ row1.set := fun hm =>
    absurd ((Rect.mem_set_unit.mp hm) (0 : Fin 3)).1 (by show ¬(1 ≤ 0); omega)
  refine (View.canon_cons_of_not_mem (⟨row1, w1⟩ : View.Piece (Elt Ideal) S2x256x2048 .f32) (⟨row0, w0⟩ :: L) hm).trans ?_
  rw [← emb_row0 r cc]
  exact View.canon_cons_emb row0 w0 L _

/-! ## The step and the closing store at an index -/

/-- The updated accumulator at `(bi, r, c)`: the old entry plus this tile's one-hot product. -/
theorem step_apply (i : grid0.Coords) (hk : (i 2).val < 99) (x0 : Vec Ideal S2x256 .i32) (x1 : Vec Ideal S512x2048 .f32)
    (acc : Vec Ideal S2x256x2048 .f32) (L : List (View.Piece (Elt Ideal) S2x256x2048 .f32)) (bi : Fin 2) (r : Fin 256) (cc : Fin 2048) :
    step i x0 x1 acc L (ix3 bi r cc)
      = acc (ix3 bi r cc) + ∑ j : Fin 512, ind (x0 (ix2 bi r)) ((i 2).val * 512 + j.val) * x1 (ix2 j cc) := by
  unfold step
  have hb : bi = 0 ∨ bi = 1 := by omega
  rcases hb with rfl | rfl
  · refine (canon_row0 _ _ L r cc).trans ?_
    refine (Pay.pay8_apply i hk _ _ _ 0 r cc).trans ?_
    rw [ld_row0, ld_tok0, ld_tile]
  · refine (canon_row1 _ _ r cc).trans ?_
    refine (Pay.pay1_apply i hk _ _ _ 0 r cc).trans ?_
    rw [ld_row1, ld_tok1, ld_tile]

/-- The result block at `(bi, r, c)`: the accumulator's entry plus the bias plus the position entry. -/
theorem close_apply (x2 : Vec Ideal S256x2048 .f32) (x3 : Vec Ideal S1x2048 .f32) (acc : Vec Ideal S2x256x2048 .f32)
    (bi : Fin 2) (r : Fin 256) (cc : Fin 2048) :
    close x2 x3 acc (ix3 bi r cc) = acc (ix3 bi r cc) + x3 (ix2 (0 : Fin 1) cc) + x2 (ix2 r cc) := by
  unfold close
  have hb : bi = 0 ∨ bi = 1 := by omega
  rcases hb with rfl | rfl
  · refine (canon_row0 _ _ [] r cc).trans ?_
    refine (Pay.pay3_apply _ _ _ 0 r cc).trans ?_
    rw [ld_row0, ld_bias, ld_pos]
  · refine (canon_row1 _ _ r cc).trans ?_
    refine (Pay.pay4_apply _ _ _ 0 r cc).trans ?_
    rw [ld_row1, ld_bias, ld_pos]

end Cert.KernelIdeal.Acc

end
-- ==== Proof.Blocks.lean ====
/-
  Where each window's block sits in its array.

  The grid runs over `(mi, ni, k)` with `k` fastest: point number `t` has `k = t mod 99`, `ni = (t / 99) mod 2`,
  `mi = t / 198`.  The token block is columns `mi·256 …` of the token array; the tile is rows `k·512 …`, columns
  `ni·2048 …` of the zero-extended table; the position block is rows `mi·256 …`, columns `ni·2048 …`; the bias block
  is columns `ni·2048 …` of the bias row; the result block is `(:, mi·256 …, ni·2048 …)`.  The zero-extended table is
  the table on its first 50400 rows and the padding value, the integer 0 converted, below them; the bias row is the
  bias vector re-laid as one row.
-/
import proofs.«163709_j39307540693313_1_alg».proof.Proof.Gen.KernelIdeal.Frame
import proofs.«163709_j39307540693313_1_alg».proof.Proof.OneHotSum
import Idealize.ShloMosaic.Lib.Pipeline.Value
import Idealize.ShloMosaic.Lib.StableHlo.Run
import Idealize.ShloMosaic.Lib.KernelVsHost
import Idealize.ShloMosaic.Lib.ValueLayout
import Idealize.ShloMosaic.Lib.Tactic

noncomputable section

open scoped BigOperators
open Idealize.ShloMosaic Idealize.ShloMosaic.TcCoe Idealize.SL.Sem Idealize.ShloMosaic.ValueIdx

namespace Cert.KernelIdeal.Blk

open Cert.KernelIdeal Cert.KernelIdeal.Gen Cert.OneHotSum

/-! ## The index maps, decided once over the grid -/

theorem idx_facts : ∀ t : Fin cfg0.N,
    win0_0.index t (0 : Fin 2) = 0 ∧ win0_0.index t (1 : Fin 2) = t.val / 198
    ∧ win0_1.index t (0 : Fin 2) = t.val % 99 ∧ win0_1.index t (1 : Fin 2) = t.val / 99 % 2
    ∧ win0_2.index t (0 : Fin 2) = t.val / 198 ∧ win0_2.index t (1 : Fin 2) = t.val / 99 % 2
    ∧ win0_3.index t (0 : Fin 2) = 0 ∧ win0_3.index t (1 : Fin 2) = t.val / 99 % 2
    ∧ win0_4.index t (0 : Fin 3) = 0 ∧ win0_4.index t (1 : Fin 3) = t.val / 198 ∧ win0_4.index t (2 : Fin 3) = t.val / 99 % 2
    ∧ ((grid0.coords t) 2).val = t.val % 99 :=
  (by decide +kernel : ∀ t : Fin grid0.N, _)

theorem lt_N (t : Fin cfg0.N) : t.val < 1584 := lt_of_lt_of_eq t.isLt (show cfg0.N = 1584 from N_0)

/-- The token / result row of the whole array that row `r` of point `t`'s block is. -/
def rowOf (t : Fin cfg0.N) (r : Fin 256) : Fin 2048 := ⟨t.val / 198 * 256 + r.val, by have := lt_N t; omega⟩
/-- The column of the whole array that column `c` of point `t`'s block is. -/
def colOf (t : Fin cfg0.N) (cc : Fin 2048) : Fin 4096 := ⟨t.val / 99 % 2 * 2048 + cc.val, by omega⟩
/-- The row of the zero-extended table that row `j` of point `t`'s tile is. -/
def vrowOf (t : Fin cfg0.N) (j : Fin 512) : Fin 50688 := ⟨t.val % 99 * 512 + j.val, by omega⟩

variable {F : FTy → Type} [FloatOps F]
variable (m : (ℓ : Loc nD τ sig) → Buf (Elt F) ℓ)

/-! ## The blocks and the arrays, named at their literal types -/

abbrev tokBlk (c : Dev nD) (t : Fin cfg0.N) : Vec F S2x256 .i32 := iblk m c 0 t
abbrev tileBlk (c : Dev nD) (t : Fin cfg0.N) : Vec F S512x2048 .f32 := iblk m c 1 t
abbrev posBlk (c : Dev nD) (t : Fin cfg0.N) : Vec F S256x2048 .f32 := iblk m c 2 t
abbrev biasBlk (c : Dev nD) (t : Fin cfg0.N) : Vec F S1x2048 .f32 := iblk m c 3 t
abbrev tokArr (c : Dev nD) : Vec F S2x2048 .i32 := V m c main_arg0
abbrev extArr (c : Dev nD) : Vec F S50688x4096 .f32 := V m c main_v0
abbrev posArr (c : Dev nD) : Vec F S2048x4096 .f32 := V m c main_arg3
abbrev biasRow (c : Dev nD) : Vec F S1x4096 .f32 := V m c main_v1

theorem tokBlk_apply (c : Dev nD) (t : Fin cfg0.N) (bi : Fin 2) (r : Fin 256) :
    tokBlk m c t (ix2 bi r) = tokArr m c (ix2 bi (rowOf t r)) := by
  obtain ⟨e0, e1, -⟩ := idx_facts t
  show iblk m c 0 t (ix2 bi r) = _
  unfold iblk
  rw [View.read_apply]
  show V m c main_arg0 _ = V m c main_arg0 _
  congr 1
  funext a
  apply Fin.ext
  match a with
  | ⟨0, _⟩ => show win0_0.index t (0 : Fin 2) * 2 + 1 * bi.val = bi.val; rw [e0]; omega
  | ⟨1, _⟩ => show win0_0.index t (1 : Fin 2) * 256 + 1 * r.val = t.val / 198 * 256 + r.val; rw [e1]; omega

theorem tileBlk_apply (c : Dev nD) (t : Fin cfg0.N) (j : Fin 512) (cc : Fin 2048) :
    tileBlk m c t (ix2 j cc) = extArr m c (ix2 (vrowOf t j) (colOf t cc)) := by
  obtain ⟨-, -, e0, e1, -⟩ := idx_facts t
  show iblk m c 1 t (ix2 j cc) = _
  unfold iblk
  rw [View.read_apply]
  show V m c main_v0 _ = V m c main_v0 _
  congr 1
  funext a
  apply Fin.ext
  match a with
  | ⟨0, _⟩ => show win0_1.index t (0 : Fin 2) * 512 + 1 * j.val = t.val % 99 * 512 + j.val; rw [e0]; omega
  | ⟨1, _⟩ => show win0_1.index t (1 : Fin 2) * 2048 + 1 * cc.val = t.val / 99 % 2 * 2048 + cc.val; rw [e1]; omega

theorem posBlk_apply (c : Dev nD) (t : Fin cfg0.N) (r : Fin 256) (cc : Fin 2048) :
    posBlk m c t (ix2 r cc) = posArr m c (ix2 (rowOf t r) (colOf t cc)) := by
  obtain ⟨-, -, -, -, e0, e1, -⟩ := idx_facts t
  show iblk m c 2 t (ix2 r cc) = _
  unfold iblk
  rw [View.read_apply]
  show V m c main_arg3 _ = V m c main_arg3 _
  congr 1
  funext a
  apply Fin.ext
  match a with
  | ⟨0, _⟩ => show win0_2.index t (0 : Fin 2) * 256 + 1 * r.val = t.val / 198 * 256 + r.val; rw [e0]; omega
  | ⟨1, _⟩ => show win0_2.index t (1 : Fin 2) * 2048 + 1 * cc.val = t.val / 99 % 2 * 2048 + cc.val; rw [e1]; omega

theorem biasBlk_apply (c : Dev nD) (t : Fin cfg0.N) (z : Fin 1) (cc : Fin 2048) :
    biasBlk m c t (ix2 z cc) = biasRow m c (ix2 (0 : Fin 1) (colOf t cc)) := by
  obtain ⟨-, -, -, -, -, -, e0, e1, -⟩ := idx_facts t
  show iblk m c 3 t (ix2 z cc) = _
  unfold iblk
  rw [View.read_apply]
  show V m c main_v1 _ = V m c main_v1 _
  congr 1
  funext a
  apply Fin.ext
  match a with
  | ⟨0, _⟩ => show win0_3.index t (0 : Fin 2) * 1 + 1 * z.val = 0; rw [e0]; omega
  | ⟨1, _⟩ => show win0_3.index t (1 : Fin 2) * 2048 + 1 * cc.val = t.val / 99 % 2 * 2048 + cc.val; rw [e1]; omega

/-! ## The arrays the host prepared -/

theorem tokArr_eq (c : Dev nD) : tokArr m c = m ((c : Thread nD τ).loc main_arg0) := V_main_arg0 m c
theorem posArr_eq (c : Dev nD) : posArr m c = m ((c : Thread nD τ).loc main_arg3) := V_main_arg3 m c

/-- The zero-extended table is the table padded below with the integer 0 converted. -/
theorem extArr_eq (c : Dev nD) :
    extArr m c = pad S50688x4096 ![0, 0] ![288, 0] ![0, 0] (m ((c : Thread nD τ).loc main_arg1))
      (sitofp (F := F) .f32 (constantI S_ 32 0#32)) pads_S50400x4096_S50688x4096_02880_000 h_S_ := by
  show V m c main_v0 = _
  dsimp only [Gen.V]
  simp only [Gen.hostOps0, Gen.hostOps0_1, Gen.hostOps0_2, List.flatten_cons, List.flatten_nil, List.append_nil,
    List.cons_append, List.nil_append]
  after_results
  rfl

/-- The bias row is the bias vector re-laid as one row. -/
theorem biasRow_eq (c : Dev nD) :
    biasRow m c = shapeCast S1x4096 (m ((c : Thread nD τ).loc main_arg2)) shapeCasts_S4096_S1x4096 := by
  show V m c main_v1 = _
  dsimp only [Gen.V]
  simp only [Gen.hostOps0, Gen.hostOps0_1, Gen.hostOps0_2, List.flatten_cons, List.flatten_nil, List.append_nil,
    List.cons_append, List.nil_append]
  after_results
  rfl

end Cert.KernelIdeal.Blk

end
-- ==== Proof.Invariant.lean ====
/-
  The accumulator after every grid point, and the array the kernel leaves.

  After point `t = (mi, ni, k)` the accumulator's entry `(bi, r, c)` is the one-hot sum of token `(bi, mi·256 + r)`
  against column `ni·2048 + c` of the zero-extended table over its first `(k+1)·512` rows: at `k = 0` the point starts
  from zeros, at every later `k` from what the point before left, and each point adds its own tile of 512 rows.  At
  `k = 98` all 50688 rows are in, the point writes accumulator + bias + position block back, and those blocks tile
  the result array: the array ends at the specification of the four arguments.
-/
import proofs.«163709_j39307540693313_1_alg».proof.Proof.Gen.KernelIdeal.Value
import proofs.«163709_j39307540693313_1_alg».proof.Proof.StepValue
import proofs.«163709_j39307540693313_1_alg».proof.Proof.Blocks

noncomputable section

open scoped BigOperators
open Idealize.ShloMosaic Idealize.ShloMosaic.TcCoe Idealize.SL.Sem Idealize.ShloMosaic.ValueIdx
open Idealize.ShloMosaic.Pipeline (Dat)

namespace Cert.KernelIdeal.Fin

open Cert.KernelIdeal Cert.KernelIdeal.Gen Cert.OneHotSum Cert.KernelIdeal.Acc Cert.KernelIdeal.Blk

variable (m : (ℓ : Loc nD τ sig) → Buf (Elt Ideal) ℓ) (ρ : Dev nD → PrngReg)

/-- The four arguments as the launch finds them. -/
abbrev xA (c : Dev nD) : S2x2048.Idx → BitVec 32 := m ((c : Thread nD τ).loc main_arg0)
abbrev wA (c : Dev nD) : S50400x4096.Idx → EReal := m ((c : Thread nD τ).loc main_arg1)
abbrev bA (c : Dev nD) : S4096.Idx → EReal := m ((c : Thread nD τ).loc main_arg2)
abbrev pA (c : Dev nD) : S2048x4096.Idx → EReal := m ((c : Thread nD τ).loc main_arg3)

/-! ## The host's arrays at an index -/

/-- The zero-extended table at `(v, d)`: the table's entry on its own rows, zero below them. -/
theorem extArr_apply (c : Dev nD) (v : Fin 50688) (d : Fin 4096) : extArr m c (ix2 v d) = wpad (wA m c) d v.val := by
  rw [extArr_eq]
  unfold wpad
  by_cases h : v.val < 50400
  · rw [dif_pos h]
    exact pad_apply_of_inside _ _ _ _ _ _ _ (ix2 v d) (ix2 (⟨v.val, h⟩ : Fin 50400) d) (fun a => by
      match a with
      | ⟨0, _⟩ => show v.val = 0 + v.val * (0 + 1); omega
      | ⟨1, _⟩ => show d.val = 0 + d.val * (0 + 1); omega)
  · rw [dif_neg h]
    refine (pad_apply_of_not_inside _ _ _ _ _ _ _ (ix2 v d) (0 : Fin 2) (fun hh => h ?_)).trans ?_
    · have h2 : (v.val - 0) / (0 + 1) < 50400 := hh.2.2
      simpa using h2
    · show ((((0#32 : BitVec 32)).toInt : ℝ) : EReal) = 0
      simp

/-- The bias row at `(0, d)` is the bias vector at `d`. -/
theorem biasRow_apply (c : Dev nD) (d : Fin 4096) : biasRow m c (ix2 (0 : Fin 1) d) = bA m c (ix1 d) := by
  rw [biasRow_eq]
  exact shapeCast_a_1a_apply _ _ (0 : Fin 1) d

/-! ## One point's update, in closed form -/

/-- A point that finds the accumulator at the sum over the rows before its tile leaves it at the sum through its tile. -/
theorem step_point (c : Dev nD) (t : Fin cfg0.N) (acc : Vec Ideal S2x256x2048 .f32)
    (L : List (View.Piece (Elt Ideal) S2x256x2048 .f32)) (bi : Fin 2) (r : Fin 256) (cc : Fin 2048)
    (hacc : acc (ix3 bi r cc) = upto (xA m c (ix2 bi (rowOf t r))) (wA m c) (colOf t cc) (t.val % 99 * 512)) :
    step (grid0.coords t) (tokBlk m c t) (tileBlk m c t) acc L (ix3 bi r cc)
      = upto (xA m c (ix2 bi (rowOf t r))) (wA m c) (colOf t cc) ((t.val % 99 + 1) * 512) := by
  obtain ⟨-, -, -, -, -, -, -, -, -, -, -, ek⟩ := idx_facts t
  have hk : ((grid0.coords t) 2).val < 99 := by rw [ek]; omega
  rw [step_apply _ hk, hacc, upto_tile, ek]
  refine congrArg _ (Finset.sum_congr rfl fun j _ => ?_)
  rw [tokBlk_apply, tokArr_eq, tileBlk_apply, extArr_apply]
  rfl

/-- The closed form of the accumulator after point `n`. -/
def accAt (c : Dev nD) (n : ℕ) (h : n < cfg0.N) : Vec Ideal S2x256x2048 .f32 := fun y =>
  upto (xA m c (ix2 (y 0) (rowOf ⟨n, h⟩ (y 1)))) (wA m c) (colOf ⟨n, h⟩ (y 2)) ((n % 99 + 1) * 512)

theorem accAt_ix3 (c : Dev nD) (n : ℕ) (h : n < cfg0.N) (bi : Fin 2) (r : Fin 256) (cc : Fin 2048) :
    accAt m c n h (ix3 bi r cc)
      = upto (xA m c (ix2 bi (rowOf ⟨n, h⟩ r))) (wA m c) (colOf ⟨n, h⟩ cc) ((n % 99 + 1) * 512) := rfl

/-- Within one run of 99 tiles the block's place in the arrays does not move, and the tile number goes up by one. -/
theorem place_succ (n : ℕ) (h : n + 1 < cfg0.N) (h0 : ¬(n + 1) % 99 = 0) (r : Fin 256) (cc : Fin 2048) :
    rowOf ⟨n, Nat.lt_of_succ_lt h⟩ r = rowOf ⟨n + 1, h⟩ r ∧ colOf ⟨n, Nat.lt_of_succ_lt h⟩ cc = colOf ⟨n + 1, h⟩ cc
      ∧ (n % 99 + 1) * 512 = (n + 1) % 99 * 512 := by
  refine ⟨Fin.ext ?_, Fin.ext ?_, ?_⟩
  · show n / 198 * 256 + r.val = (n + 1) / 198 * 256 + r.val; omega
  · show n / 99 % 2 * 2048 + cc.val = (n + 1) / 99 % 2 * 2048 + cc.val; omega
  · omega

/-- THE INVARIANT: after every point the carried accumulator is its closed form. -/
theorem acc_eq (c : Dev nD) : ∀ (n : ℕ) (h : n < cfg0.N), (outsAt0 m c n h).2 = accAt m c n h
  | 0, h => by
    rw [outsAt0_A m c ⟨0, h⟩ rfl (by show ¬(0 : ℕ) % 99 = 98; decide)]
    dsimp only
    rw [sout_A]
    funext y
    obtain ⟨bi, r, cc, rfl⟩ : ∃ (bi : Fin 2) (r : Fin 256) (cc : Fin 2048), y = ix3 bi r cc := ⟨y 0, y 1, y 2, eq_ix3 y⟩
    rw [accAt_ix3]
    refine step_point m c ⟨0, h⟩ _ _ bi r cc ?_
    rw [Pay.pay5_apply]
    exact (upto_zero _ _ _).symm
  | n + 1, h => by
    have hN : n + 1 < 1584 := lt_of_lt_of_eq h (show cfg0.N = 1584 from N_0)
    have ih := acc_eq c n (Nat.lt_of_succ_lt h)
    by_cases h0 : (n + 1) % 99 = 0
    · have h1 : ¬(n + 1) % 99 = 98 := by omega
      rw [outsAt0_A m c ⟨n + 1, h⟩ h0 h1]
      dsimp only
      rw [sout_A]
      funext y
      obtain ⟨bi, r, cc, rfl⟩ : ∃ (bi : Fin 2) (r : Fin 256) (cc : Fin 2048), y = ix3 bi r cc := ⟨y 0, y 1, y 2, eq_ix3 y⟩
      rw [accAt_ix3]
      refine step_point m c ⟨n + 1, h⟩ _ _ bi r cc ?_
      rw [Pay.pay5_apply]
      show (0 : EReal) = upto _ _ _ ((n + 1) % 99 * 512)
      rw [h0]
      exact (upto_zero _ _ _).symm
    · have hstep : (outsAt0 m c (n + 1) h).2
          = step (grid0.coords ⟨n + 1, h⟩) (tokBlk m c ⟨n + 1, h⟩) (tileBlk m c ⟨n + 1, h⟩) (outsAt0 m c n (Nat.lt_of_succ_lt h)).2 [] := by
        by_cases h1 : (n + 1) % 99 = 98
        · rw [outsAt0_C m c ⟨n + 1, h⟩ h0 h1]
          dsimp only
          exact sout_C ..
        · rw [outsAt0_B m c ⟨n + 1, h⟩ h0 h1]
          dsimp only
          exact sout_B ..
      rw [hstep, ih]
      funext y
      obtain ⟨bi, r, cc, rfl⟩ : ∃ (bi : Fin 2) (r : Fin 256) (cc : Fin 2048), y = ix3 bi r cc := ⟨y 0, y 1, y 2, eq_ix3 y⟩
      rw [accAt_ix3]
      refine step_point m c ⟨n + 1, h⟩ _ _ bi r cc ?_
      obtain ⟨e1, e2, e3⟩ := place_succ n h h0 r cc
      rw [accAt_ix3, e1, e2, e3]

end Cert.KernelIdeal.Fin

end
-- ==== Proof.Final.lean ====
/-
  The array the kernel leaves is the specification.

  At a last tile (`k = 98`) the accumulator holds the one-hot sum over all 50688 rows of the zero-extended table, and
  the point writes back accumulator + bias + position block: block `(:, mi·256 …, ni·2048 …)` of the specification.
  Every index `(b, s, d)` of the result lies in the block of the last-tile point with `mi = s / 256`, `ni = d / 2048`,
  so the written blocks cover the array.
-/
import proofs.«163709_j39307540693313_1_alg».proof.Proof.Invariant

noncomputable section

open scoped BigOperators
open Idealize.ShloMosaic Idealize.ShloMosaic.TcCoe Idealize.SL.Sem Idealize.ShloMosaic.ValueIdx
open Idealize.ShloMosaic.Pipeline (Dat)

namespace Cert.KernelIdeal.Fin

open Cert.KernelIdeal Cert.KernelIdeal.Gen Cert.OneHotSum Cert.KernelIdeal.Acc Cert.KernelIdeal.Blk

variable (m : (ℓ : Loc nD τ sig) → Buf (Elt Ideal) ℓ) (ρ : Dev nD → PrngReg)

/-- The specification of the four arguments as the launch finds them. -/
abbrev spec (c : Dev nD) : S2x2048x4096.Idx → EReal := G (xA m c) (wA m c) (bA m c) (pA m c)

/-- What a last-tile point leaves in the result block: the specification at the block's place in the array. -/
theorem out_last (c : Dev nD) (t : Fin cfg0.N) (h0 : ¬t.val % 99 = 0) (h1 : t.val % 99 = 98)
    (bi : Fin 2) (r : Fin 256) (cc : Fin 2048) :
    (outsAt0 m c t.val t.isLt).1 (ix3 bi r cc) = spec m c (ix3 bi (rowOf t r) (colOf t cc)) := by
  have e1 : (outsAt0 m c t.val t.isLt).1 = close (posBlk m c t) (biasBlk m c t) (outsAt0 m c t.val t.isLt).2 := by
    rw [outsAt0_C m c t h0 h1]
    dsimp only
    rw [out_C, sout_C]
  rw [e1, acc_eq, close_apply, accAt_ix3, posBlk_apply, posArr_eq, biasBlk_apply, biasRow_apply]
  show _ = G (xA m c) (wA m c) (bA m c) (pA m c) (ix3 bi (rowOf t r) (colOf t cc))
  rw [G_ix3, h1]

/-- WHAT A LAST-TILE POINT WRITES BACK is its block of the specification. -/
theorem flushed_eq (c : Dev nD) (t : Fin cfg0.N) (hf : (cfg0.win 4).flush t = true) :
    (dats m 0 c).flushed 4 t = ((cfg0.win 4).blk t).view.read (Elt Ideal) (spec m c) := by
  have h1 := (flush0_4 t).mp hf
  have h0 : ¬t.val % 99 = 0 := by omega
  obtain ⟨-, -, -, -, -, -, -, -, e0, e1, e2, -⟩ := idx_facts t
  rw [Value.flushed4]
  funext j
  rw [View.read_apply]
  show (outsAt0 m c t.val t.isLt).1 ((cfg0.win 4).xinj (grid0.coords t) j) = spec m c (((cfg0.win 4).blk t).view.emb j)
  have hy := eq_ix3 (((cfg0.win 4).xinj (grid0.coords t) j : S2x256x2048.Idx))
  refine (congrArg (outsAt0 m c t.val t.isLt).1 hy).trans ?_
  refine (out_last m c t h0 h1 _ _ _).trans ?_
  refine congrArg (spec m c) (funext fun a => Fin.ext ?_)
  match a with
  | ⟨0, _⟩ => show (j 0).val = win0_4.index t (0 : Fin 3) * 2 + 1 * (j 0).val; rw [e0]; omega
  | ⟨1, _⟩ => show t.val / 198 * 256 + (j 1).val = win0_4.index t (1 : Fin 3) * 256 + 1 * (j 1).val; rw [e1]; omega
  | ⟨2, _⟩ => show t.val / 99 % 2 * 2048 + (j 2).val = win0_4.index t (2 : Fin 3) * 2048 + 1 * (j 2).val; rw [e2]; omega

/-- The written blocks cover the result array. -/
theorem cover (i : S2x2048x4096.Idx) :
    ∃ t : Fin cfg0.N, (cfg0.win 4).flush t = true ∧ i ∈ ((cfg0.win 4).blk t).view.set := by
  have h0 : (i 0).val < 2 := (i 0).isLt
  have h1 : (i 1).val < 2048 := (i 1).isLt
  have h2 : (i 2).val < 4096 := (i 2).isLt
  have hn : (i 1).val / 256 * 198 + (i 2).val / 2048 * 99 + 98 < cfg0.N := by
    rw [show cfg0.N = 1584 from N_0]; omega
  obtain ⟨-, -, -, -, -, -, -, -, e0, e1, e2, -⟩ := idx_facts ⟨_, hn⟩
  refine ⟨⟨_, hn⟩, (flush0_4 _).mpr (by show ((i 1).val / 256 * 198 + (i 2).val / 2048 * 99 + 98) % 99 = 98; omega), ?_⟩
  show i ∈ ((View.whole main_v2).slice (win0_4.rect ⟨_, hn⟩)).set
  rw [View.set_slice_whole, Rect.mem_set_unit]
  intro a
  match a with
  | ⟨0, _⟩ =>
    show win0_4.index ⟨_, hn⟩ (0 : Fin 3) * 2 ≤ (i 0).val ∧ (i 0).val < win0_4.index ⟨_, hn⟩ (0 : Fin 3) * 2 + 2
    rw [e0]; omega
  | ⟨1, _⟩ =>
    show win0_4.index ⟨_, hn⟩ (1 : Fin 3) * 256 ≤ (i 1).val ∧ (i 1).val < win0_4.index ⟨_, hn⟩ (1 : Fin 3) * 256 + 256
    rw [e1]; show ((i 1).val / 256 * 198 + (i 2).val / 2048 * 99 + 98) / 198 * 256 ≤ _ ∧ _ < ((i 1).val / 256 * 198 + (i 2).val / 2048 * 99 + 98) / 198 * 256 + 256; omega
  | ⟨2, _⟩ =>
    show win0_4.index ⟨_, hn⟩ (2 : Fin 3) * 2048 ≤ (i 2).val ∧ (i 2).val < win0_4.index ⟨_, hn⟩ (2 : Fin 3) * 2048 + 2048
    rw [e2]; show ((i 1).val / 256 * 198 + (i 2).val / 2048 * 99 + 98) / 99 % 2 * 2048 ≤ _ ∧ _ < ((i 1).val / 256 * 198 + (i 2).val / 2048 * 99 + 98) / 99 % 2 * 2048 + 2048; omega

/-- THE RESULT ARRAY after the run is the specification. -/
theorem final (c : Dev nD) : (dats m 0 c).arrAt 4 cfg0.N = spec m c :=
  (dats m 0 c).arrAt_eq_of_cover 4 (spec m c) (fun t hf => flushed_eq m c t hf) cover

/-- The kernel's run, read: the result at the specification, the arguments unchanged. -/
theorem run : θ_run defs (onTc (τ := τ) (main (F := Ideal))) ⟨m, fun _ => 0, ρ⟩ fun r => ∀ c : Dev nD,
      r.2.mem ((c : Thread nD τ).loc main_v2) = spec m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.Fin

end
-- ==== Proof.lean ====
/- The proof of `Cert.Claim`: a token-embedding kernel against its one-hot reference, over the extended reals.

   Both programs compute, for every batch row `b`, position `s` and model column `d`,
       out[b, s, d] = ∑ᵥ [x[b, s] = v] · W[v, d] + bias[d] + pos[s, d].
   The reference forms the one-hot array over the 50400 vocabulary rows and contracts it with the table in one product.
   The kernel extends the table by 288 zero rows, walks the 50688 rows in 99 tiles of 512, and for each block of 256
   positions and 2048 columns accumulates the tiles' one-hot products from zero, adding the bias and the position block
   at the last tile.  The two agree because the zero rows add nothing (`a · 0 = 0`), a sum over 50688 rows is the sum of
   its 99 tiles' sums taken in order from zero (associativity of `+`), the two spellings of the indicator (an equality
   bit widened and converted signed, or converted directly unsigned) are both 0 or 1, and the changes of float format
   in the kernel are identities over the extended reals.  No finiteness of the inputs is needed.

   Proof/OneHotSum.lean states the sums and the specification; Proof/RefValue.lean reads the reference's run as the
   specification; Proof/Payload.lean, Proof/Step.lean and Proof/StepValue.lean read one grid point's arithmetic;
   Proof/Blocks.lean places each block in its array; Proof/Invariant.lean carries the accumulator's closed form over the
   grid by induction on the point; Proof/Final.lean covers the result array with the written blocks. -/
import proofs.«163709_j39307540693313_1_alg».proof.Defs
import proofs.«163709_j39307540693313_1_alg».proof.Proof.Gen.Kernel
import proofs.«163709_j39307540693313_1_alg».proof.Proof.Gen.Kernel.Skeleton
import proofs.«163709_j39307540693313_1_alg».proof.Proof.Gen.Kernel.Launch
import proofs.«163709_j39307540693313_1_alg».proof.Proof.Gen.Kernel.Points
import proofs.«163709_j39307540693313_1_alg».proof.Proof.Gen.Kernel.Frame
import proofs.«163709_j39307540693313_1_alg».proof.Proof.Gen.KernelIdeal
import proofs.«163709_j39307540693313_1_alg».proof.Proof.Gen.KernelIdeal.Skeleton
import proofs.«163709_j39307540693313_1_alg».proof.Proof.Gen.KernelIdeal.Launch
import proofs.«163709_j39307540693313_1_alg».proof.Proof.Gen.KernelIdeal.Points
import proofs.«163709_j39307540693313_1_alg».proof.Proof.Gen.KernelIdeal.Frame
import proofs.«163709_j39307540693313_1_alg».proof.Proof.Gen.ReferenceIdeal
import proofs.«163709_j39307540693313_1_alg».proof.Proof.Gen.KernelIdeal.Value
import proofs.«163709_j39307540693313_1_alg».proof.Proof.Gen.ReferenceIdeal.Run
import proofs.«163709_j39307540693313_1_alg».proof.Proof.Gen.ReferenceIdeal.Read
import proofs.«163709_j39307540693313_1_alg».proof.Proof.Gen.Pre_finite_inputs
import proofs.«163709_j39307540693313_1_alg».proof.Proof.RefValue
import proofs.«163709_j39307540693313_1_alg».proof.Proof.Final
import Idealize.ShloMosaic.Adequacy
import Idealize.ShloMosaic.Init

noncomputable section

namespace Cert.Proof

open Idealize.ShloMosaic Idealize.SL.Sem

/-- The kernel as printed runs and keeps its arguments. -/
theorem frame_k : Cert.frame_Kernel := fun m ρ _ => Cert.Kernel.Gen.frame m ρ

/-- So does its reading over the extended reals. -/
theorem frame_ki : Cert.frame_KernelIdeal := fun m ρ _ => Cert.KernelIdeal.Gen.frame m ρ

/-- The reference runs and keeps its arguments: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The kernel's result array ends at the specification of its arguments, and the reference's result, read index by
    index, is the same specification of arguments that agree. -/
theorem algebraic : Cert.algebraic_KernelIdeal_ReferenceIdeal := by
  intro m ρ m' ρ' _ hagree
  refine ⟨fun c => Cert.KernelIdeal.Fin.spec m c, Cert.KernelIdeal.Fin.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v7_eq, Cert.ReferenceIdeal.RefValue.ref_eq_G, (hagree c).1, (hagree c).2.1,
    (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
